-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel

variable [Facts]

def fn {F : FTy → Type} [FloatOps F] (main_arg0 : FVec F S8192x64 .f32) (main_arg1 : FVec F S8192x64 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  main_v8
-- ==== Kernel.lean ====
abbrev S8192x64 : Shape := ⟨2, ![8192, 64]⟩
abbrev S8192x8192 : Shape := ⟨2, ![8192, 8192]⟩
abbrev S1024x64 : Shape := ⟨2, ![1024, 64]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩
abbrev S64x1024 : Shape := ⟨2, ![64, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x8192, .f32⟩
  | .local _ .vmem, ⟨0, _⟩ => ⟨S1024x64, .f32⟩
  | .local _ .vmem, ⟨1, _⟩ => ⟨S1024x64, .f32⟩
  | .local _ .vmem, ⟨2, _⟩ => ⟨S1024x64, .f32⟩
  | .local _ .vmem, ⟨3, _⟩ => ⟨S1024x64, .f32⟩
  | .local _ .vmem, ⟨4, _⟩ => ⟨S1024x1024, .f32⟩
  | .local _ .vmem, ⟨5, _⟩ => ⟨S1024x1024, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1024x64_S1024x64_0_0 : ∀ a, (![0, 0] : Fin 2 → Nat) a + S1024x64.size a ≤ S1024x64.size a
  h_S1024x64 : 0 < S1024x64.numel
  reduces_S1024x64_S1024 : S1024x64.Reduces [1] S1024
  shapeCasts_S1024_S1024x1 : S1024.ShapeCasts S1024x1
  shapeCasts_S1024x1_S1x1024 : S1024x1.ShapeCasts S1x1024
  transposes_S1024x64_p1_0_S64x1024 : S1024x64.Transposes [1, 0] S64x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x64_S64x1024_S1024x1024_1_0_0_1_n_n_wf : DotDims.WF S1024x64 S64x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S8192x64.size a
  hwx0_0 : ∀ i : grid0.Coords, EltTy.bits .f32 = 32 ∨ (Rect.block (s := S8192x64) S1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S8192x64.size a
  hwx0_1 : ∀ i : grid0.Coords, EltTy.bits .f32 = 32 ∨ (Rect.block (s := S8192x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .f32 = 32 ∨ (Rect.block (s := S8192x8192) S1024x1024.size (cc0_transform_2 i) (hinb0_2 i)).WholeWords (EltTy.packing .f32)

variable [Facts₀]

def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf

abbrev win0_0 : Pipeline.Window sig grid0 :=
  Pipeline.Window.ofSpec (Memref.whole main_arg0) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x64 : Shape := ⟨2, ![8192, 64]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S64x8192 : Shape := ⟨2, ![64, 8192]⟩
abbrev S8192x8192 : Shape := ⟨2, ![8192, 8192]⟩

abbrev nBuf : Space → Nat
  | .hbm => 23
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x64, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x64, .f32⟩
  | .hbm, ⟨7, _⟩ => ⟨S_, .f32⟩
  | .hbm, ⟨8, _⟩ => ⟨S8192, .f32⟩
  | .hbm, ⟨9, _⟩ => ⟨S1x8192, .f32⟩
  | .hbm, ⟨10, _⟩ => ⟨S64x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S8192x8192, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  reducesTo_S8192x64_S8192_d1 : S8192x64.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  transposes_S8192x64_S64x8192_1_0 : S8192x64.Transposes [1, 0] S64x8192
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x64_S64x8192_S8192x8192_1_0_0_1_n_n_wf : DotDims.WF S8192x64 S64x8192 S8192x8192 [1] [0] [0] [1] [] []

variable [Facts₀]

def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf

class Facts : Prop extends Facts₀ where

variable [Facts]
-- ==== Proof.GaussSpec.lean ====
/-
  The Gaussian similarity matrix of two families of 8192 rows in dimension 64, as ONE function of the two
  argument arrays, index by index over the extended reals: entry (i, j) is

      exp (-1 · ((‖a_i‖² + ‖b_j‖²) − 2 · ⟨a_i, b_j⟩)),

  with ‖a_i‖² the sum over the 64 columns of the squares of row i of `a`, and ⟨a_i, b_j⟩ the sum over the
  columns of the products of row i of `a` with row j of `b`.  The two scalars −1 and 2 are kept as the words the
  programs print (0xBF800000 and 0x40000000): both programs carry the same words, so they are never evaluated.
  No program is imported here: this is the common meaning both sides are shown to have.
-/
import Idealize.ShloMosaic.PureOps.Ideal
import Idealize.ShloMosaic.Lib.ValueIdx

noncomputable section

namespace Cert.Gaussian

open Idealize.ShloMosaic Idealize.ShloMosaic.ValueIdx

/-- The squared Euclidean norm of row `i`: the sum over the 64 columns of the square of the entry. -/
def sqNorm (a : (⟨2, ![8192, 64]⟩ : Shape).Idx → EReal) (i : Fin 8192) : EReal :=
  ∑ k : Fin 64, a (ix2 i k) * a (ix2 i k)

/-- The inner product of row `i` of `a` with row `j` of `b`: the sum over the 64 columns of the products. -/
def inner (a b : (⟨2, ![8192, 64]⟩ : Shape).Idx → EReal) (i j : Fin 8192) : EReal :=
  ∑ k : Fin 64, a (ix2 i k) * b (ix2 j k)

/-- The squared distance of row `i` of `a` from row `j` of `b`, in the expanded form both programs compute:
    the two squared norms added, less twice the inner product. -/
def sqDist (a b : (⟨2, ![8192, 64]⟩ : Shape).Idx → EReal) (i j : Fin 8192) : EReal :=
  (sqNorm a i + sqNorm b j) - Ideal.ofBits .f32 0x40000000#32 * inner a b i j

/-- The Gaussian similarity matrix: `exp` of minus the squared distance, entry by entry. -/
def gauss (a b : (⟨2, ![8192, 64]⟩ : Shape).Idx → EReal) : (⟨2, ![8192, 8192]⟩ : Shape).Idx → EReal :=
  fun i => Ideal.exp (Ideal.ofBits .f32 0xBF800000#32 * sqDist a b (i 0) (i 1))

end Cert.Gaussian

end
-- ==== Proof.GaussRef.lean ====
/-
  The reference program's result is the Gaussian similarity matrix.
  Read one host operation at a time, entry (p, q) of the reference's last stage is the exponential of −1 times
  ((0 + Σ_k a(p,k)·a(p,k)) + (0 + Σ_k b(q,k)·b(q,k))) − 2 · Σ_k a(p,k)·bᵀ(k,q): the two row sums start from the
  zero word, which is the extended real 0, and the transposed operand read at (k, q) is b at (q, k).
-/
import proofs.«139034_j7327214207092_1_alg».proof.Proof.Gen.ReferenceIdeal.Read
import proofs.«139034_j7327214207092_1_alg».proof.Proof.GaussSpec

noncomputable section

namespace Cert.Gaussian.Ref

open Cert.ReferenceIdeal Cert.ReferenceIdeal.Gen Cert.ReferenceIdeal.Read
open Idealize.ShloMosaic Idealize.ShloMosaic.ValueIdx

theorem ref_eq (x0 x1 : (⟨S8192x64, .f32⟩ : BufTy).Contents (Elt Ideal)) :
    val_main_v16 (F := Ideal) x0 x1 = Cert.Gaussian.gauss x0 x1 := by
  funext i
  obtain ⟨p, q, rfl⟩ : ∃ (p : Fin 8192) (q : Fin 8192), i = ix2 p q := ⟨i 0, i 1, eq_ix2 i⟩
  rw [val_main_v16_apply, val_main_v15_apply, val_main_v14_apply, val_main_cst_2_apply, val_main_v13_apply,
    val_main_v10_apply, val_main_v8_apply, val_main_v2_apply, val_main_v1_apply, val_main_v9_apply, val_main_v5_apply,
    val_main_v4_apply, val_main_v12_apply, val_main_v11_apply, val_main_cst_1_apply, val_main_v7_apply]
  have e1 : ∀ k : Fin 64, idx_main_v1 (idx_main_v2 (idx_main_v8 (ix2 p q))) k = ix2 p k := fun k =>
    funext fun a => Fin.ext (by match a with | ⟨0, _⟩ => rfl | ⟨1, _⟩ => rfl)
  have e4 : ∀ k : Fin 64, idx_main_v4 (idx_main_v5 (idx_main_v9 (ix2 p q))) k = ix2 q k := fun k =>
    funext fun a => Fin.ext (by match a with | ⟨0, _⟩ => rfl | ⟨1, _⟩ => rfl)
  have el : ∀ k : Fin 64, lidx_main_v7 (ix2 p q) k = ix2 p k := fun k =>
    funext fun a => Fin.ext (by match a with | ⟨0, _⟩ => rfl | ⟨1, _⟩ => rfl)
  have er : ∀ k : Fin 64, idx_main_v6 (ridx_main_v7 (ix2 p q) k) = ix2 q k := fun k =>
    funext fun a => Fin.ext (by match a with | ⟨0, _⟩ => rfl | ⟨1, _⟩ => rfl)
  simp only [val_main_v0_apply, val_main_v3_apply, val_main_v6_apply, val_main_cst_apply, val_main_cst_0_apply, e1, e4, el, er,
    Ideal.ofBits_def, Ideal.addf_def, Ideal.subf_def, Ideal.mulf_def, Ideal.hostUnary_exp_def, Ideal.ofBits_zero_f32, zero_add]
  rfl

end Cert.Gaussian.Ref

end
-- ==== Proof.LibKeepdims.lean ====
/-
  Column ("keepdims") layouts read at an index, and a row sum read at an index, generic in the sizes.

  A row-wise reduction that keeps its axis produces an `[a]` vector viewed as an `[a, 1]` column; the column is then
  viewed as a `[1, a]` row, or spread over the columns of an `[a, b]` matrix.  Each of these reads ONE entry of
  its operand at each index of its result:
    · `[a] → [a, 1]` at (i, u) reads the operand at i;
    · `[a, 1] → [1, a]` at (u, i) reads the operand at (i, 0);
    · `[a, 1] → [a, b]` (a broadcast) at (i, j) reads the operand at (i, 0);
  and a sum of an `[a, b]` matrix along its second axis, read at i over the extended reals, is the sum over the b
  columns of the entries of row i.
-/
import Idealize.ShloMosaic.Lib.Pipeline.Value
import Idealize.ShloMosaic.Lib.ValueIdx
import Idealize.ShloMosaic.PureOps.Ideal.Laws

noncomputable section

namespace Cert.LibKeepdims

open Idealize.ShloMosaic Idealize.ShloMosaic.ValueIdx

variable {α : Type}

/-- An `[a]` array cast to the column `[a, 1]` reads, at `(i, u)`, the operand at `i`, whatever the unit coordinate `u`:
    both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the row `[1, a]` reads, at `(u, i)`, the operand at `(i, 0)`: both have row-major
    position `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- A column `[a, 1]` broadcast to `[a, b]` reads, at `(i, j)`, the operand's one entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Over the extended reals, the sum of an `[a, b]` matrix along its second axis, read at `i`, is the sum over the `b`
    columns of row `i`'s entries (the accumulator word being the sum's neutral element). -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (funext fun d => Fin.ext (by
      match d with
      | ⟨0, _⟩ => rfl
      | ⟨1, _⟩ => rfl)))

end Cert.LibKeepdims

end
-- ==== Proof.GaussPayload.lean ====
/-
  What the kernel body stores at one entry of its output block, over the extended reals.
  The body holds a [1024, 64] block `x0` of the first argument and a [1024, 64] block `x1` of the second.  Entry
  (p, q) of what it stores is exp (−1 · ((Σ_k x0(p,k)² + Σ_k x1(q,k)²) − 2 · Σ_k x0(p,k)·x1(q,k))):
    · the row sums of squares of `x0`, kept as a column, are spread over the block's columns: at (p, q) that is row p's sum;
    · the row sums of squares of `x1`, kept as a column, then viewed as a row and spread over the block's rows: at
      (p, q) that is row q's sum;
    · the matrix product of `x0` with the transpose of `x1`, into a zero accumulator: at (p, q) the sum over the 64
      columns of x0(p,k) · x1(q,k).
-/
import proofs.«139034_j7327214207092_1_alg».proof.Proof.Gen.KernelIdeal.Skeleton
import proofs.«139034_j7327214207092_1_alg».proof.Proof.LibKeepdims
import Idealize.ShloMosaic.Lib.ValueLayout

noncomputable section

namespace Cert.Gaussian.Kernel

open Cert.KernelIdeal Cert.KernelIdeal.Gen Cert.LibKeepdims
open Idealize.ShloMosaic Idealize.ShloMosaic.ValueIdx

/-! ## The block product's operand indices, axis by axis -/

theorem lhs_0 (i : S1024x1024.Idx) (q : dot_S1024x64_S64x1024_S1024x1024_1_0_0_1_n_n.contr.Idx) :
    (dot_S1024x64_S64x1024_S1024x1024_1_0_0_1_n_n.lhsIdx i q 0).val = (i 0).val := by
  unfold DotDims.lhsIdx
  rw [dif_neg (show ¬(0 : Fin S1024x64.rank) ∈ dot_S1024x64_S64x1024_S1024x1024_1_0_0_1_n_n.lhsBatch by decide), dif_pos (show (0 : Fin S1024x64.rank) ∈ dot_S1024x64_S64x1024_S1024x1024_1_0_0_1_n_n.lhsNonContracting by decide)]
  rfl
theorem lhs_1 (i : S1024x1024.Idx) (q : dot_S1024x64_S64x1024_S1024x1024_1_0_0_1_n_n.contr.Idx) :
    (dot_S1024x64_S64x1024_S1024x1024_1_0_0_1_n_n.lhsIdx i q 1).val = (q ⟨0, by decide⟩).val :=
  dot_S1024x64_S64x1024_S1024x1024_1_0_0_1_n_n.lhsIdx_val_of_single rfl i q
theorem rhs_0 (i : S1024x1024.Idx) (q : dot_S1024x64_S64x1024_S1024x1024_1_0_0_1_n_n.contr.Idx) :
    (dot_S1024x64_S64x1024_S1024x1024_1_0_0_1_n_n.rhsIdx i q 0).val = (q ⟨0, by decide⟩).val :=
  dot_S1024x64_S64x1024_S1024x1024_1_0_0_1_n_n.rhsIdx_val_of_single rfl i q
theorem rhs_1 (i : S1024x1024.Idx) (q : dot_S1024x64_S64x1024_S1024x1024_1_0_0_1_n_n.contr.Idx) :
    (dot_S1024x64_S64x1024_S1024x1024_1_0_0_1_n_n.rhsIdx i q 1).val = (i 1).val := by
  unfold DotDims.rhsIdx
  rw [dif_neg (show ¬(1 : Fin S64x1024.rank) ∈ dot_S1024x64_S64x1024_S1024x1024_1_0_0_1_n_n.rhsBatch by decide), dif_pos (show (1 : Fin S64x1024.rank) ∈ dot_S1024x64_S64x1024_S1024x1024_1_0_0_1_n_n.rhsNonContracting by decide)]
  rfl

/-- The block product into a zero accumulator, at (p, q): row p of the left operand against column q of the right,
    summed over the 64 contracted positions. -/
theorem blockProduct_apply (x : FVec Ideal S1024x64 .f32) (y : FVec Ideal S64x1024 .f32) (p q : Fin 1024) :
    matmul dot_S1024x64_S64x1024_S1024x1024_1_0_0_1_n_n none x y (constant (F := Ideal) S1024x1024 .f32 0x00000000#32) (ix2 p q)
      = ∑ k : Fin 64, x (ix2 p k) * y (ix2 k q) := by
  simp only [matmul]
  rw [Ideal.matmul_constant_zero_apply, ← Equiv.sum_comp (contrEquiv1 dot_S1024x64_S64x1024_S1024x1024_1_0_0_1_n_n 64 rfl rfl).symm]
  refine Finset.sum_congr rfl fun k _ => ?_
  have hk := contrEquiv1_symm_val dot_S1024x64_S64x1024_S1024x1024_1_0_0_1_n_n 64 rfl rfl k
  have el : dot_S1024x64_S64x1024_S1024x1024_1_0_0_1_n_n.lhsIdx (ix2 p q) ((contrEquiv1 dot_S1024x64_S64x1024_S1024x1024_1_0_0_1_n_n 64 rfl rfl).symm k) = ix2 p k := funext fun a => Fin.ext (by
    match a with
    | ⟨0, _⟩ => exact lhs_0 _ _
    | ⟨1, _⟩ => exact (lhs_1 _ _).trans hk)
  have er : dot_S1024x64_S64x1024_S1024x1024_1_0_0_1_n_n.rhsIdx (ix2 p q) ((contrEquiv1 dot_S1024x64_S64x1024_S1024x1024_1_0_0_1_n_n 64 rfl rfl).symm k) = ix2 k q := funext fun a => Fin.ext (by
    match a with
    | ⟨0, _⟩ => exact (rhs_0 _ _).trans hk
    | ⟨1, _⟩ => exact rhs_1 _ _)
  rw [el, er]

/-! ## The two squared-norm terms -/

/-- The row sums of squares of a block, kept as a column and spread over 1024 columns: at (p, q), row p's sum. -/
theorem rowNormSpread_apply (x : FVec Ideal S1024x64 .f32) (p q : Fin 1024) :
    broadcastTo S1024x1024 (shapeCast S1024x1 (multiReduction .add [1] S1024 (mulf x x) 0x00000000#32 reduces_S1024x64_S1024 (.inl rfl) rfl) shapeCasts_S1024_S1024x1) broadcasts_S1024x1_S1024x1024 (ix2 p q)
      = ∑ k : Fin 64, x (ix2 p k) * x (ix2 p k) :=
  (broadcastTo_a1_ab_apply _ _ p q).trans ((shapeCast_a_a1_apply _ _ p 0).trans (rowSum_apply _ _ _ _ _ p))

/-- The row sums of squares of a block, kept as a column, viewed as a row and spread over 1024 rows: at (p, q), row q's sum. -/
theorem colNormSpread_apply (x : FVec Ideal S1024x64 .f32) (p q : Fin 1024) :
    broadcastTo S1024x1024 (shapeCast S1x1024 (shapeCast S1024x1 (multiReduction .add [1] S1024 (mulf x x) 0x00000000#32 reduces_S1024x64_S1024 (.inl rfl) rfl) shapeCasts_S1024_S1024x1) shapeCasts_S1024x1_S1x1024) broadcasts_S1x1024_S1024x1024 (ix2 p q)
      = ∑ k : Fin 64, x (ix2 q k) * x (ix2 q k) :=
  (broadcastTo_1b_ab_apply _ _ p q).trans ((shapeCast_a1_1a_apply _ _ 0 q).trans ((shapeCast_a_a1_apply _ _ q 0).trans (rowSum_apply _ _ _ _ _ q)))

/-! ## The stored entry -/

/-- Entry (p, q) of what the body stores, from its two loaded blocks. -/
theorem stored_apply (x0 x1 : FVec Ideal S1024x64 .f32) (p q : Fin 1024) :
    k0_pay1 (F := Ideal) x0 x1 (ix2 p q)
      = Ideal.exp (Ideal.ofBits .f32 0xBF800000#32 *
          (((∑ k : Fin 64, x0 (ix2 p k) * x0 (ix2 p k)) + ∑ k : Fin 64, x1 (ix2 q k) * x1 (ix2 q k))
            - Ideal.ofBits .f32 0x40000000#32 * ∑ k : Fin 64, x0 (ix2 p k) * x1 (ix2 q k))) := by
  unfold k0_pay1
  dsimp only
  refine congrArg Ideal.exp (congrArg (Ideal.ofBits .f32 0xBF800000#32 * ·) ?_)
  refine congrArg₂ (· - ·) (congrArg₂ (· + ·) (rowNormSpread_apply x0 p q) (colNormSpread_apply x1 p q))
    (congrArg (Ideal.ofBits .f32 0x40000000#32 * ·) ?_)
  exact (blockProduct_apply x0 _ p q).trans
    (Finset.sum_congr rfl fun k _ => congrArg (x0 (ix2 p k) * ·) (transpose_ix2_apply x1 _ k q))

end Cert.Gaussian.Kernel

end
-- ==== Proof.GaussBlocks.lean ====
/-
  From the blocks to the whole array: after the kernel has run, its result array IS the Gaussian similarity matrix of
  its two argument arrays.
  The grid has 8 × 8 points; point (r, s) stages rows 1024·r … 1024·r + 1023 of the first argument, rows
  1024·s … 1024·s + 1023 of the second, and writes back the [1024, 1024] block of the result at block position (r, s).
  Entry (p, q) of that block is the stored entry of the body (the exponential of minus the squared distance of row p
  of the first staged block from row q of the second), and row p of the first staged block is row 1024·r + p of the
  first argument, row q of the second is row 1024·s + q of the second argument: so the block written back is the
  restriction of ONE whole-array function to the block.  The 64 blocks tile the result: index (i, j) lies in the block
  of the point with r = i / 1024 and s = j / 1024.
-/
import proofs.«139034_j7327214207092_1_alg».proof.Proof.Gen.KernelIdeal.Value
import proofs.«139034_j7327214207092_1_alg».proof.Proof.GaussSpec
import proofs.«139034_j7327214207092_1_alg».proof.Proof.GaussPayload
import Idealize.ShloMosaic.Lib.Pipeline.Value
import Idealize.ShloMosaic.Lib.Tactic

noncomputable section

namespace Cert.Gaussian.Blocks

open Cert.KernelIdeal Cert.KernelIdeal.Gen Cert.KernelIdeal.Value Cert.Gaussian Cert.Gaussian.Kernel
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem offsets_zero : (![0, 0] : Fin 2 → Nat) = fun _ => 0 := funext fun a => by fin_cases a <;> rfl

/-- The three index maps over the 64 grid points: the first argument's window follows the result's row block, the
    second argument's window follows the result's column block, both take all 64 columns, and the result's block
    positions stay below 8 on each axis. -/
theorem idx_facts : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 7 ∧ win0_2.index t (1 : Fin 2) ≤ 7 :=
  (by decide +kernel : ∀ t : Fin grid0.N, _)

/-- Every block position (r, s) of the result is some grid point's. -/
theorem idx_onto : ∀ (r s : Fin 8), ∃ t : Fin cfg0.N, win0_2.index t = ![r.val, s.val] :=
  (by decide +kernel : ∀ (r s : Fin 8), ∃ t : Fin grid0.N, win0_2.index t = ![r.val, s.val])

/-- Row `p` of the first argument's staged block at point `t` is row `P` of the first argument, when `P` is `p` moved
    down by the result's row-block position. -/
theorem rows0_apply (c : Dev nD) (t : Fin cfg0.N) (p : Fin 1024) (k : Fin 64) (P : Fin 8192)
    (hP : P.val = win0_2.index t (0 : Fin 2) * 1024 + p.val) :
    (iblk m c 0 t : Vec Ideal S1024x64 .f32) (ix2 p k) = (V m c main_arg0 : S8192x64.Idx → EReal) (ix2 P k) := by
  obtain ⟨e0, e1, e2, e3, e4, e5⟩ := idx_facts t
  unfold iblk
  rw [View.read_apply]
  show V m c main_arg0 _ = V m c main_arg0 _
  congr 1
  funext a
  apply Fin.ext
  match a with
  | ⟨0, _⟩ => show win0_0.index t (0 : Fin 2) * 1024 + 1 * p.val = P.val; rw [e0, hP]; omega
  | ⟨1, _⟩ => show win0_0.index t (1 : Fin 2) * 64 + 1 * k.val = k.val; rw [e1]; omega

/-- Row `q` of the second argument's staged block at point `t` is row `Q` of the second argument, when `Q` is `q` moved
    down by the result's column-block position. -/
theorem rows1_apply (c : Dev nD) (t : Fin cfg0.N) (q : Fin 1024) (k : Fin 64) (Q : Fin 8192)
    (hQ : Q.val = win0_2.index t (1 : Fin 2) * 1024 + q.val) :
    (iblk m c 1 t : Vec Ideal S1024x64 .f32) (ix2 q k) = (V m c main_arg1 : S8192x64.Idx → EReal) (ix2 Q k) := by
  obtain ⟨e0, e1, e2, e3, e4, e5⟩ := idx_facts t
  unfold iblk
  rw [View.read_apply]
  show V m c main_arg1 _ = V m c main_arg1 _
  congr 1
  funext a
  apply Fin.ext
  match a with
  | ⟨0, _⟩ => show win0_1.index t (0 : Fin 2) * 1024 + 1 * q.val = Q.val; rw [e2, hQ]; omega
  | ⟨1, _⟩ => show win0_1.index t (1 : Fin 2) * 64 + 1 * k.val = k.val; rw [e3]; omega

/-- The stored entry (p, q) at point `t` is the Gaussian similarity matrix of the two arguments at the array index the
    result's block puts (p, q) at. -/
theorem entry_eq (c : Dev nD) (t : Fin cfg0.N) (p q : Fin 1024) :
    k0_pay1 (F := Ideal) (iblk m c 0 t) (iblk m c 1 t) (ix2 p q)
      = gauss (V m c main_arg0) (V m c main_arg1) (((cfg0.win 2).blk t).view.emb (ix2 p q)) := by
  refine (stored_apply (iblk m c 0 t) (iblk m c 1 t) p q).trans ?_
  have hP : ((((cfg0.win 2).blk t).view.emb (ix2 p q)) 0).val = win0_2.index t (0 : Fin 2) * 1024 + p.val := by
    show win0_2.index t (0 : Fin 2) * 1024 + 1 * p.val = _; omega
  have hQ : ((((cfg0.win 2).blk t).view.emb (ix2 p q)) 1).val = win0_2.index t (1 : Fin 2) * 1024 + q.val := by
    show win0_2.index t (1 : Fin 2) * 1024 + 1 * q.val = _; omega
  unfold gauss sqDist sqNorm inner
  refine congrArg Ideal.exp (congrArg (_ * ·) ?_)
  refine congrArg₂ (· - ·) (congrArg₂ (· + ·) (Finset.sum_congr rfl fun k _ => ?_) (Finset.sum_congr rfl fun k _ => ?_))
    (congrArg (_ * ·) (Finset.sum_congr rfl fun k _ => ?_))
  · exact congrArg₂ (· * ·) (rows0_apply m c t p k _ hP) (rows0_apply m c t p k _ hP)
  · exact congrArg₂ (· * ·) (rows1_apply m c t q k _ hQ) (rows1_apply m c t q k _ hQ)
  · exact congrArg₂ (· * ·) (rows0_apply m c t p k _ hP) (rows1_apply m c t q k _ hQ)

/-- WHAT POINT `t` WRITES BACK is block `t` of the Gaussian similarity matrix of the argument arrays. -/
theorem flushed_eq (c : Dev nD) (t : Fin cfg0.N) :
    (dats m 0 c).flushed 2 t = ((cfg0.win 2).blk t).view.read (Elt Ideal) (gauss (V m c main_arg0) (V m c main_arg1)) := by
  rw [Value.flushed2]
  unfold out0_2
  rw [View.canon_unit_zero offsets_zero]
  simp only [View.ld_unit_zero (S := S1024x64) offsets_zero]
  funext j
  obtain ⟨p, q, rfl⟩ : ∃ (p : Fin 1024) (q : Fin 1024), j = ix2 p q := ⟨j 0, j 1, eq_ix2 j⟩
  exact entry_eq m c t p q

/-- An index of the result array is in point `t`'s block iff each coordinate is in the block's range on its axis. -/
theorem mem_blk (t : Fin cfg0.N) (i : S8192x8192.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v0).slice (win0_2.rect t)).set ↔ _
  rw [View.set_slice_whole, Rect.mem_set_unit]
  exact Iff.rfl

/-- THE BLOCKS TILE THE RESULT: index (i, j) lies in the block of the point at block position (i / 1024, j / 1024). -/
theorem cover (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := idx_onto ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- THE RESULT ARRAY after the run is the Gaussian similarity matrix of the two argument arrays. -/
theorem final (c : Dev nD) :
    (dats m 0 c).arrAt 2 cfg0.N = gauss (m ((c : Thread nD τ).loc main_arg0)) (m ((c : Thread nD τ).loc main_arg1)) :=
  (dats m 0 c).arrAt_eq_of_cover 2 (gauss (V m c main_arg0) (V m c main_arg1)) (fun t _ => flushed_eq m c t) cover

/-- The kernel's run, read: the result array at the Gaussian similarity matrix of the arguments, the arguments unchanged. -/
theorem run : θ_run defs (onTc (τ := τ) (main (F := Ideal))) ⟨m, fun _ => 0, ρ⟩ fun r => ∀ c : Dev nD,
      r.2.mem ((c : Thread nD τ).loc main_v0) = gauss (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.Gaussian.Blocks

end
-- ==== Proof.lean ====
/-
  The Gaussian similarity kernel against its jnp reference, over the extended reals.

  Both programs take two [8192, 64] arrays a and b and produce the [8192, 8192] matrix whose entry (i, j) is
      exp (−1 · ((‖a_i‖² + ‖b_j‖²) − 2 · ⟨a_i, b_j⟩)),
  the squared distance of row i of a from row j of b in its expanded form.  The kernel computes it block by block on an
  8 × 8 grid of [1024, 1024] output blocks, from 1024 rows of a and 1024 rows of b at a time; the reference computes it
  at once on whole arrays.  Read at the extended reals, every sum is an order-free finite sum, the matrix product into
  a zero accumulator is the sum of products, and the two scalars −1 and 2 are the same words on both sides: the two
  results are one function of the arguments (`Cert.Gaussian.gauss`), entry by entry, with no law of arithmetic beyond
  `0 + x = x` for the row sums' zero start.  So the precondition (finite inputs) is never opened.

  · `Proof/GaussSpec.lean`     the common function, index by index.
  · `Proof/GaussRef.lean`      the reference's last stage is that function.
  · `Proof/LibKeepdims.lean`   a kept-axis column viewed as a row or spread over a matrix, and a row sum, at an index.
  · `Proof/GaussPayload.lean`  the entry the kernel body stores, from its two staged blocks.
  · `Proof/GaussBlocks.lean`   the staged blocks are rows of the arguments, the output blocks tile the result: the
                               kernel's result array is that function.
  The three frames are the generated frame runs (the reference's is its run with the result dropped); the ideal pass
  rewrote nothing, so there is nothing for `preserves` to state.
-/
import proofs.«139034_j7327214207092_1_alg».proof.Defs
import proofs.«139034_j7327214207092_1_alg».proof.Proof.Gen.Kernel
import proofs.«139034_j7327214207092_1_alg».proof.Proof.Gen.Kernel.Skeleton
import proofs.«139034_j7327214207092_1_alg».proof.Proof.Gen.Kernel.Launch
import proofs.«139034_j7327214207092_1_alg».proof.Proof.Gen.Kernel.Points
import proofs.«139034_j7327214207092_1_alg».proof.Proof.Gen.Kernel.Frame
import proofs.«139034_j7327214207092_1_alg».proof.Proof.Gen.KernelIdeal
import proofs.«139034_j7327214207092_1_alg».proof.Proof.Gen.KernelIdeal.Skeleton
import proofs.«139034_j7327214207092_1_alg».proof.Proof.Gen.KernelIdeal.Launch
import proofs.«139034_j7327214207092_1_alg».proof.Proof.Gen.KernelIdeal.Points
import proofs.«139034_j7327214207092_1_alg».proof.Proof.Gen.KernelIdeal.Frame
import proofs.«139034_j7327214207092_1_alg».proof.Proof.Gen.ReferenceIdeal
import proofs.«139034_j7327214207092_1_alg».proof.Proof.Gen.Pre_finite_inputs
import proofs.«139034_j7327214207092_1_alg».proof.Proof.Gen.KernelIdeal.Value
import proofs.«139034_j7327214207092_1_alg».proof.Proof.Gen.ReferenceIdeal.Run
import proofs.«139034_j7327214207092_1_alg».proof.Proof.Gen.ReferenceIdeal.Read
import proofs.«139034_j7327214207092_1_alg».proof.Proof.GaussRef
import proofs.«139034_j7327214207092_1_alg».proof.Proof.GaussBlocks
import Idealize.ShloMosaic.Adequacy
import Idealize.ShloMosaic.Init

noncomputable section

namespace Cert.Proof

open Idealize.ShloMosaic Idealize.ShloMosaic.TcCoe Idealize.SL.Sem

/-- The word-level kernel runs and leaves its arguments as they were: the generated frame run. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference has no kernel: its frame is its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the two arguments, the idealized kernel's result array ends at the Gaussian similarity
    matrix of the arguments (block by block, the blocks tiling the result) and the reference's result ends at its last
    stage, which is the same matrix. -/
theorem algebraic : Cert.algebraic_KernelIdeal_ReferenceIdeal := by
  intro m ρ m' ρ' _ hagree
  refine ⟨fun c => Cert.Gaussian.gauss (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.Gaussian.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.Gaussian.Ref.ref_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
